-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩

class Facts : Prop where
  bcast_S_S500x100000 : S_.BroadcastsInDim S500x100000 (![] : Fin 0 → Fin S500x100000.rank)
  reducesTo_S500x100000_S_d0_1 : S500x100000.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S500x61 : S_.BroadcastsInDim S500x61 (![] : Fin 0 → Fin S500x61.rank)
  reducesTo_S500x61_S_d0_1 : S500x61.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500x100000 .f32) (main_arg1 : FVec F S100000x2 .f32) (main_arg2 : FVec F S500x61 .f32) (main_arg3 : FVec F S1 .f32) (main_arg4 : FVec F S1 .f32) (main_arg5 : IVec S25 32) : IVec S_ 1 :=
  let main_v0 : FVec F S500x100000 .f32 := Host.absf main_arg0
  let main_cst : FVec F S_ .f32 := constant S_ .f32 0x7F800000#32
  let main_v1 : FVec F S500x100000 .f32 := broadcastInDim S500x100000 ![] bcast_S_S500x100000 main_cst
  let main_v2 : IVec S500x100000 1 := cmpf .olt main_v0 main_v1
  let main_c : IVec S_ 1 := constantI S_ 1 1#1
  let main_v3 : IVec S_ 1 := (fun x v => Host.reduce IntOp.andi x v reducesTo_S500x100000_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S500x61 .f32 := Host.absf main_arg2
  let main_cst_2 : FVec F S_ .f32 := constant S_ .f32 0x7F800000#32
  let main_v10 : FVec F S500x61 .f32 := broadcastInDim S500x61 ![] bcast_S_S500x61 main_cst_2
  let main_v11 : IVec S500x61 1 := cmpf .olt main_v9 main_v10
  let main_c_3 : IVec S_ 1 := constantI S_ 1 1#1
  let main_v12 : IVec S_ 1 := (fun x v => Host.reduce IntOp.andi x v reducesTo_S500x61_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩
abbrev S25x1 : Shape := ⟨2, ![25, 1]⟩
abbrev S25x100000 : Shape := ⟨2, ![25, 100000]⟩
abbrev S100000x25 : Shape := ⟨2, ![100000, 25]⟩
abbrev S25x61 : Shape := ⟨2, ![25, 61]⟩
abbrev S100000x32x64 : Shape := ⟨3, ![100000, 32, 64]⟩
abbrev S1000x25 : Shape := ⟨2, ![1000, 25]⟩
abbrev S1000x2 : Shape := ⟨2, ![1000, 2]⟩
abbrev S1000x32x64 : Shape := ⟨3, ![1000, 32, 64]⟩
abbrev S1x25x61 : Shape := ⟨3, ![1, 25, 61]⟩
abbrev S1000x25x61 : Shape := ⟨3, ![1000, 25, 61]⟩
abbrev S1000x1x2 : Shape := ⟨3, ![1000, 1, 2]⟩
abbrev S1000x25x2 : Shape := ⟨3, ![1000, 25, 2]⟩
abbrev S1000x25x1 : Shape := ⟨3, ![1000, 25, 1]⟩
abbrev S1000x7x64 : Shape := ⟨3, ![1000, 7, 64]⟩

abbrev nBuf : Space → Nat
  | .hbm => 32
  | .vmem => 7
  | .smem => 0
  | _ => 0

abbrev bufTy : (tb : Table) → Fin (tcTables nBuf tb) → BufTy
  | .hbm, ⟨0, _⟩ => ⟨S500x100000, .f32⟩
  | .hbm, ⟨1, _⟩ => ⟨S100000x2, .f32⟩
  | .hbm, ⟨2, _⟩ => ⟨S500x61, .f32⟩
  | .hbm, ⟨3, _⟩ => ⟨S1, .f32⟩
  | .hbm, ⟨4, _⟩ => ⟨S1, .f32⟩
  | .hbm, ⟨5, _⟩ => ⟨S25, .i32⟩
  | .hbm, ⟨6, _⟩ => ⟨S_, .i32⟩
  | .hbm, ⟨7, _⟩ => ⟨S25, .i32⟩
  | .hbm, ⟨8, _⟩ => ⟨S25, .i1⟩
  | .hbm, ⟨9, _⟩ => ⟨S_, .i32⟩
  | .hbm, ⟨10, _⟩ => ⟨S25, .i32⟩
  | .hbm, ⟨11, _⟩ => ⟨S25, .i32⟩
  | .hbm, ⟨12, _⟩ => ⟨S25, .i32⟩
  | .hbm, ⟨13, _⟩ => ⟨S25x1, .i32⟩
  | .hbm, ⟨14, _⟩ => ⟨S25x100000, .f32⟩
  | .hbm, ⟨15, _⟩ => ⟨S_, .f32⟩
  | .hbm, ⟨16, _⟩ => ⟨S25x100000, .f32⟩
  | .hbm, ⟨17, _⟩ => ⟨S25x100000, .f32⟩
  | .hbm, ⟨18, _⟩ => ⟨S_, .f32⟩
  | .hbm, ⟨19, _⟩ => ⟨S25x100000, .f32⟩
  | .hbm, ⟨20, _⟩ => ⟨S25x100000, .f32⟩
  | .hbm, ⟨21, _⟩ => ⟨S100000x25, .f32⟩
  | .hbm, ⟨22, _⟩ => ⟨S_, .i32⟩
  | .hbm, ⟨23, _⟩ => ⟨S25, .i32⟩
  | .hbm, ⟨24, _⟩ => ⟨S25, .i1⟩
  | .hbm, ⟨25, _⟩ => ⟨S_, .i32⟩
  | .hbm, ⟨26, _⟩ => ⟨S25, .i32⟩
  | .hbm, ⟨27, _⟩ => ⟨S25, .i32⟩
  | .hbm, ⟨28, _⟩ => ⟨S25, .i32⟩
  | .hbm, ⟨29, _⟩ => ⟨S25x1, .i32⟩
  | .hbm, ⟨30, _⟩ => ⟨S25x61, .f32⟩
  | .hbm, ⟨31, _⟩ => ⟨S100000x32x64, .f32⟩
  | .local _ .vmem, ⟨0, _⟩ => ⟨S1000x25, .f32⟩
  | .local _ .vmem, ⟨1, _⟩ => ⟨S1000x25, .f32⟩
  | .local _ .vmem, ⟨2, _⟩ => ⟨S25x61, .f32⟩
  | .local _ .vmem, ⟨3, _⟩ => ⟨S1000x2, .f32⟩
  | .local _ .vmem, ⟨4, _⟩ => ⟨S1000x2, .f32⟩
  | .local _ .vmem, ⟨5, _⟩ => ⟨S1000x32x64, .f32⟩
  | .local _ .vmem, ⟨6, _⟩ => ⟨S1000x32x64, .f32⟩
  | _, _ => ⟨S500x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x61 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S25 : S_.BroadcastsInDim S25 (![] : Fin 0 → Fin S25.rank)
  bcast_S25_S25x1_0 : S25.BroadcastsInDim S25x1 (![0] : Fin 1 → Fin S25x1.rank)
  shapeCasts_S1_S_ : S1.ShapeCasts S_
  bcast_S_S25x100000 : S_.BroadcastsInDim S25x100000 (![] : Fin 0 → Fin S25x100000.rank)
  transposes_S25x100000_S100000x25_1_0 : S25x100000.Transposes [1, 0] S100000x25
  inb_S25x61_S25x61_0_0 : ∀ a, (![0, 0] : Fin 2 → Nat) a + S25x61.size a ≤ S25x61.size a
  h_S25x61 : 0 < S25x61.numel
  shapeCasts_S25x61_S25x61 : S25x61.ShapeCasts S25x61
  inb_S1000x25_S1000x25_0_0 : ∀ a, (![0, 0] : Fin 2 → Nat) a + S1000x25.size a ≤ S1000x25.size a
  h_S1000x25 : 0 < S1000x25.numel
  shapeCasts_S1000x25_S1000x25 : S1000x25.ShapeCasts S1000x25
  inb_S1000x2_S1000x2_0_0 : ∀ a, (![0, 0] : Fin 2 → Nat) a + S1000x2.size a ≤ S1000x2.size a
  h_S1000x2 : 0 < S1000x2.numel
  shapeCasts_S25x61_S1x25x61 : S25x61.ShapeCasts S1x25x61
  shapeCasts_S1x25x61_S1x25x61 : S1x25x61.ShapeCasts S1x25x61
  broadcasts_S1x25x61_S1000x25x61 : S1x25x61.Broadcasts S1000x25x61
  shapeCasts_S1000x2_S1000x1x2 : S1000x2.ShapeCasts S1000x1x2
  shapeCasts_S1000x1x2_S1000x1x2 : S1000x1x2.ShapeCasts S1000x1x2
  broadcasts_S1000x1x2_S1000x25x2 : S1000x1x2.Broadcasts S1000x25x2
  inb_S1000x32x64_S1000x25x61_0_0_0 : ∀ a, (![0, 0, 0] : Fin 3 → Nat) a + S1000x25x61.size a ≤ S1000x32x64.size a
  h_S1000x25x61 : 0 < S1000x25x61.numel
  shapeCasts_S1000x25_S1000x25x1 : S1000x25.ShapeCasts S1000x25x1
  inb_S1000x32x64_S1000x25x1_0_0_61 : ∀ a, (![0, 0, 61] : Fin 3 → Nat) a + S1000x25x1.size a ≤ S1000x32x64.size a
  h_S1000x25x1 : 0 < S1000x25x1.numel
  inb_S1000x32x64_S1000x25x2_0_0_62 : ∀ a, (![0, 0, 62] : Fin 3 → Nat) a + S1000x25x2.size a ≤ S1000x32x64.size a
  h_S1000x25x2 : 0 < S1000x25x2.numel
  inb_S1000x32x64_S1000x7x64_0_25_0 : ∀ a, (![0, 25, 0] : Fin 3 → Nat) a + S1000x7x64.size a ≤ S1000x32x64.size a
  h_S1000x7x64 : 0 < S1000x7x64.numel
  gather_S500x100000_S25x1_S25x100000_1_0_n_n_0_1_1100000_wf : GatherDims.WF S500x100000 S25x1 S25x100000 [1] [0] [] [0] [] 1 ![1, 100000]
  gather_S500x61_S25x1_S25x61_1_0_n_n_0_1_161_wf : GatherDims.WF S500x61 S25x1 S25x61 [1] [0] [] [0] [] 1 ![1, 61]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x25.size a ≤ S100000x25.size a
  hwx0_0 : ∀ i : grid0.Coords, EltTy.bits .f32 = 32 ∨ (Rect.block (s := S100000x25) S1000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x61.size a ≤ S25x61.size a
  hwx0_1 : ∀ i : grid0.Coords, EltTy.bits .f32 = 32 ∨ (Rect.block (s := S25x61) S25x61.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x2.size a ≤ S100000x2.size a
  hwx0_2 : ∀ i : grid0.Coords, EltTy.bits .f32 = 32 ∨ (Rect.block (s := S100000x2) S1000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x32x64.size a ≤ S100000x32x64.size a
  hwx0_3 : ∀ i : grid0.Coords, EltTy.bits .f32 = 32 ∨ (Rect.block (s := S100000x32x64) S1000x32x64.size (cc0_transform_3 i) (hinb0_3 i)).WholeWords (EltTy.packing .f32)

variable [Facts₀]

def gather_S500x100000_S25x1_S25x100000_1_0_n_n_0_1_1100000 : GatherDims S500x100000 S25x1 S25x100000 where
  offsetDims := [1]
  collapsedSliceDims := [0]
  operandBatchingDims := []
  startIndicesBatchingDims := []
  startIndexMap := [0]
  indexVectorDim := 1
  sliceSizes := ![1, 100000]
  wf := gather_S500x100000_S25x1_S25x100000_1_0_n_n_0_1_1100000_wf
def gather_S500x61_S25x1_S25x61_1_0_n_n_0_1_161 : GatherDims S500x61 S25x1 S25x61 where
  offsetDims := [1]
  collapsedSliceDims := [0]
  operandBatchingDims := []
  startIndicesBatchingDims := []
  startIndexMap := [0]
  indexVectorDim := 1
  sliceSizes := ![1, 61]
  wf := gather_S500x61_S25x1_S25x61_1_0_n_n_0_1_161_wf

abbrev win0_0 : Pipeline.Window sig grid0 :=
  Pipeline.Window.ofSpec (Memref.whole main_v13) S1000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S25x61.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1000x32x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩
abbrev S25x1 : Shape := ⟨2, ![25, 1]⟩
abbrev S25x100000 : Shape := ⟨2, ![25, 100000]⟩
abbrev S100000x25 : Shape := ⟨2, ![100000, 25]⟩
abbrev S100000x25x1 : Shape := ⟨3, ![100000, 25, 1]⟩
abbrev S25x61 : Shape := ⟨2, ![25, 61]⟩
abbrev S1x25x61 : Shape := ⟨3, ![1, 25, 61]⟩
abbrev S100000x25x61 : Shape := ⟨3, ![100000, 25, 61]⟩
abbrev S100000x1x2 : Shape := ⟨3, ![100000, 1, 2]⟩
abbrev S100000x25x2 : Shape := ⟨3, ![100000, 25, 2]⟩
abbrev S100000x25x64 : Shape := ⟨3, ![100000, 25, 64]⟩
abbrev S100000x7x64 : Shape := ⟨3, ![100000, 7, 64]⟩
abbrev S100000x32x64 : Shape := ⟨3, ![100000, 32, 64]⟩

abbrev nBuf : Space → Nat
  | .hbm => 40
  | .vmem => 0
  | .smem => 0
  | _ => 0

abbrev bufTy : (tb : Table) → Fin (tcTables nBuf tb) → BufTy
  | .hbm, ⟨0, _⟩ => ⟨S500x100000, .f32⟩
  | .hbm, ⟨1, _⟩ => ⟨S100000x2, .f32⟩
  | .hbm, ⟨2, _⟩ => ⟨S500x61, .f32⟩
  | .hbm, ⟨3, _⟩ => ⟨S1, .f32⟩
  | .hbm, ⟨4, _⟩ => ⟨S1, .f32⟩
  | .hbm, ⟨5, _⟩ => ⟨S25, .i32⟩
  | .hbm, ⟨6, _⟩ => ⟨S_, .i32⟩
  | .hbm, ⟨7, _⟩ => ⟨S25, .i32⟩
  | .hbm, ⟨8, _⟩ => ⟨S25, .i1⟩
  | .hbm, ⟨9, _⟩ => ⟨S_, .i32⟩
  | .hbm, ⟨10, _⟩ => ⟨S25, .i32⟩
  | .hbm, ⟨11, _⟩ => ⟨S25, .i32⟩
  | .hbm, ⟨12, _⟩ => ⟨S25, .i32⟩
  | .hbm, ⟨13, _⟩ => ⟨S25x1, .i32⟩
  | .hbm, ⟨14, _⟩ => ⟨S25x100000, .f32⟩
  | .hbm, ⟨15, _⟩ => ⟨S_, .f32⟩
  | .hbm, ⟨16, _⟩ => ⟨S25x100000, .f32⟩
  | .hbm, ⟨17, _⟩ => ⟨S25x100000, .f32⟩
  | .hbm, ⟨18, _⟩ => ⟨S_, .f32⟩
  | .hbm, ⟨19, _⟩ => ⟨S25x100000, .f32⟩
  | .hbm, ⟨20, _⟩ => ⟨S25x100000, .f32⟩
  | .hbm, ⟨21, _⟩ => ⟨S100000x25, .f32⟩
  | .hbm, ⟨22, _⟩ => ⟨S100000x25x1, .f32⟩
  | .hbm, ⟨23, _⟩ => ⟨S_, .i32⟩
  | .hbm, ⟨24, _⟩ => ⟨S25, .i32⟩
  | .hbm, ⟨25, _⟩ => ⟨S25, .i1⟩
  | .hbm, ⟨26, _⟩ => ⟨S_, .i32⟩
  | .hbm, ⟨27, _⟩ => ⟨S25, .i32⟩
  | .hbm, ⟨28, _⟩ => ⟨S25, .i32⟩
  | .hbm, ⟨29, _⟩ => ⟨S25, .i32⟩
  | .hbm, ⟨30, _⟩ => ⟨S25x1, .i32⟩
  | .hbm, ⟨31, _⟩ => ⟨S25x61, .f32⟩
  | .hbm, ⟨32, _⟩ => ⟨S1x25x61, .f32⟩
  | .hbm, ⟨33, _⟩ => ⟨S100000x25x61, .f32⟩
  | .hbm, ⟨34, _⟩ => ⟨S100000x1x2, .f32⟩
  | .hbm, ⟨35, _⟩ => ⟨S100000x25x2, .f32⟩
  | .hbm, ⟨36, _⟩ => ⟨S100000x25x64, .f32⟩
  | .hbm, ⟨37, _⟩ => ⟨S_, .f32⟩
  | .hbm, ⟨38, _⟩ => ⟨S100000x7x64, .f32⟩
  | .hbm, ⟨39, _⟩ => ⟨S100000x32x64, .f32⟩
  | _, _ => ⟨S500x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S25 : S_.BroadcastsInDim S25 (![] : Fin 0 → Fin S25.rank)
  bcast_S25_S25x1_0 : S25.BroadcastsInDim S25x1 (![0] : Fin 1 → Fin S25x1.rank)
  shapeCasts_S1_S_ : S1.ShapeCasts S_
  bcast_S_S25x100000 : S_.BroadcastsInDim S25x100000 (![] : Fin 0 → Fin S25x100000.rank)
  transposes_S25x100000_S100000x25_1_0 : S25x100000.Transposes [1, 0] S100000x25
  bcast_S100000x25_S100000x25x1_0_1 : S100000x25.BroadcastsInDim S100000x25x1 (![0, 1] : Fin 2 → Fin S100000x25x1.rank)
  bcast_S25x61_S1x25x61_1_2 : S25x61.BroadcastsInDim S1x25x61 (![1, 2] : Fin 2 → Fin S1x25x61.rank)
  bcast_S1x25x61_S100000x25x61_0_1_2 : S1x25x61.BroadcastsInDim S100000x25x61 (![0, 1, 2] : Fin 3 → Fin S100000x25x61.rank)
  bcast_S100000x2_S100000x1x2_0_2 : S100000x2.BroadcastsInDim S100000x1x2 (![0, 2] : Fin 2 → Fin S100000x1x2.rank)
  bcast_S100000x1x2_S100000x25x2_0_1_2 : S100000x1x2.BroadcastsInDim S100000x25x2 (![0, 1, 2] : Fin 3 → Fin S100000x25x2.rank)
  concatenates_S100000x25x61_S100000x25x1_S100000x25x2_S100000x25x64_d2 : Shape.Concatenates [S100000x25x61, S100000x25x1, S100000x25x2] S100000x25x64 2
  bcast_S_S100000x7x64 : S_.BroadcastsInDim S100000x7x64 (![] : Fin 0 → Fin S100000x7x64.rank)
  concatenates_S100000x25x64_S100000x7x64_S100000x32x64_d1 : Shape.Concatenates [S100000x25x64, S100000x7x64] S100000x32x64 1
  gather_S500x100000_S25x1_S25x100000_1_0_n_n_0_1_1100000_wf : GatherDims.WF S500x100000 S25x1 S25x100000 [1] [0] [] [0] [] 1 ![1, 100000]
  gather_S500x61_S25x1_S25x61_1_0_n_n_0_1_161_wf : GatherDims.WF S500x61 S25x1 S25x61 [1] [0] [] [0] [] 1 ![1, 61]

variable [Facts₀]

def gather_S500x100000_S25x1_S25x100000_1_0_n_n_0_1_1100000 : GatherDims S500x100000 S25x1 S25x100000 where
  offsetDims := [1]
  collapsedSliceDims := [0]
  operandBatchingDims := []
  startIndicesBatchingDims := []
  startIndexMap := [0]
  indexVectorDim := 1
  sliceSizes := ![1, 100000]
  wf := gather_S500x100000_S25x1_S25x100000_1_0_n_n_0_1_1100000_wf
def gather_S500x61_S25x1_S25x61_1_0_n_n_0_1_161 : GatherDims S500x61 S25x1 S25x61 where
  offsetDims := [1]
  collapsedSliceDims := [0]
  operandBatchingDims := []
  startIndicesBatchingDims := []
  startIndexMap := [0]
  indexVectorDim := 1
  sliceSizes := ![1, 61]
  wf := gather_S500x61_S25x1_S25x61_1_0_n_n_0_1_161_wf

class Facts : Prop extends Facts₀ where

variable [Facts]
-- ==== Proof.TokenSpec.lean ====
/-
  The padded token array of a node's neighbourhood, as one function of three arrays.

  For every time step `r` the array holds 32 token rows of 64 channels. Token row `j < 25` is the
  concatenation, along the channel axis, of
    * the 61 channels of the spatial embedding row of token `j`           (channels 0 … 60),
    * the normalised sensor value of token `j` at step `r`               (channel 61),
    * the 2 channels of the temporal embedding of step `r`                (channels 62, 63);
  token rows 25 … 31 are padding and hold `zero` on every channel.

  The time extent `T` is a parameter: the same formula describes the whole array (`T` = all steps) and the
  part of it one grid point writes (`T` = the steps of one block). `tokenAt_of_rows` says that an entry
  depends on the value table and on the temporal table only through their row `r`, which is what identifies
  a block of the whole array with the token array of the corresponding blocks of the two tables.
-/
import Idealize.ShloMosaic.Lib.ValueIdx

noncomputable section

namespace Cert.Tokens

open Idealize.ShloMosaic Idealize.ShloMosaic.ValueIdx

variable {α : Type}

/-- Entry (step `r`, token row `j`, channel `d`) of the padded token array built from the normalised values `z`
    (step-major), the tokens' spatial rows `sp` and the temporal table `te`. -/
def tokenAt (zero : α) {T : Nat} (z : (⟨2, ![T, 25]⟩ : Shape).Idx → α) (sp : (⟨2, ![25, 61]⟩ : Shape).Idx → α)
    (te : (⟨2, ![T, 2]⟩ : Shape).Idx → α) (r : Fin T) (j : Fin 32) (d : Fin 64) : α :=
  if hj : j.val < 25 then
    if hd : d.val < 61 then sp (ix2 ⟨j.val, hj⟩ ⟨d.val, hd⟩)
    else if d.val < 62 then z (ix2 r ⟨j.val, hj⟩)
    else te (ix2 r ⟨d.val - 62, by have := d.isLt; omega⟩)
  else zero

/-- The padded token array, index by index. -/
def tokens (zero : α) {T : Nat} (z : (⟨2, ![T, 25]⟩ : Shape).Idx → α) (sp : (⟨2, ![25, 61]⟩ : Shape).Idx → α)
    (te : (⟨2, ![T, 2]⟩ : Shape).Idx → α) : (⟨3, ![T, 32, 64]⟩ : Shape).Idx → α :=
  fun i => tokenAt zero z sp te (i 0) (i 1) (i 2)

variable (zero : α) {T : Nat} (z : (⟨2, ![T, 25]⟩ : Shape).Idx → α) (sp : (⟨2, ![25, 61]⟩ : Shape).Idx → α)
  (te : (⟨2, ![T, 2]⟩ : Shape).Idx → α)

/-- A spatial channel of a real token row reads the token's spatial row. -/
theorem tokenAt_spatial (r : Fin T) (j : Fin 32) (d : Fin 64) (hj : j.val < 25) (hd : d.val < 61) :
    tokenAt zero z sp te r j d = sp (ix2 ⟨j.val, hj⟩ ⟨d.val, hd⟩) := by
  unfold tokenAt; rw [dif_pos hj, dif_pos hd]

/-- Channel 61 of a real token row reads the token's normalised value at the step. -/
theorem tokenAt_value (r : Fin T) (j : Fin 32) (d : Fin 64) (hj : j.val < 25) (hd : d.val = 61) :
    tokenAt zero z sp te r j d = z (ix2 r ⟨j.val, hj⟩) := by
  unfold tokenAt; rw [dif_pos hj, dif_neg (by omega), if_pos (by omega)]

/-- The last two channels of a real token row read the step's temporal embedding. -/
theorem tokenAt_temporal (r : Fin T) (j : Fin 32) (d : Fin 64) (hj : j.val < 25) (hd : 62 ≤ d.val) :
    tokenAt zero z sp te r j d = te (ix2 r ⟨d.val - 62, by have := d.isLt; omega⟩) := by
  unfold tokenAt; rw [dif_pos hj, dif_neg (by omega), if_neg (by omega)]

/-- A padding row is `zero` on every channel. -/
theorem tokenAt_padding (r : Fin T) (j : Fin 32) (d : Fin 64) (hj : 25 ≤ j.val) :
    tokenAt zero z sp te r j d = zero := by
  unfold tokenAt; rw [dif_neg (by omega)]

/-- An entry at step `r` depends on the value table and on the temporal table only through their row `r`:
    tables of another time extent whose row `r'` is that row give the same entry at step `r'`. -/
theorem tokenAt_of_rows {T' : Nat} (z' : (⟨2, ![T', 25]⟩ : Shape).Idx → α) (te' : (⟨2, ![T', 2]⟩ : Shape).Idx → α)
    (r : Fin T) (r' : Fin T') (hz : ∀ j : Fin 25, z' (ix2 r' j) = z (ix2 r j))
    (hte : ∀ d : Fin 2, te' (ix2 r' d) = te (ix2 r d)) (j : Fin 32) (d : Fin 64) :
    tokenAt zero z' sp te' r' j d = tokenAt zero z sp te r j d := by
  unfold tokenAt
  by_cases hj : j.val < 25
  · rw [dif_pos hj, dif_pos hj]
    by_cases hd : d.val < 61
    · rw [dif_pos hd, dif_pos hd]
    · rw [dif_neg hd, dif_neg hd]
      by_cases hd' : d.val < 62
      · rw [if_pos hd', if_pos hd', hz]
      · rw [if_neg hd', if_neg hd', hte]
  · rw [dif_neg hj, dif_neg hj]

/-! ## The array read at an index

The same four facts and the row fact, stated for `tokens` at an index `i` of the array, the index `k` of the
table entry read being named by the caller through its coordinates. -/

/-- A spatial channel of a real token row: the spatial table at (token row, channel). -/
theorem tokens_spatial (i : (⟨3, ![T, 32, 64]⟩ : Shape).Idx) (k : (⟨2, ![25, 61]⟩ : Shape).Idx)
    (h0 : (i 1).val = (k 0).val) (h1 : (i 2).val = (k 1).val) : tokens zero z sp te i = sp k := by
  have hj : (i 1).val < 25 := by have := idx2_lt0 k; omega
  have hd : (i 2).val < 61 := by have := idx2_lt1 k; omega
  exact (tokenAt_spatial zero z sp te (i 0) (i 1) (i 2) hj hd).trans
    (congrArg sp (funext fun a => Fin.ext (match a with | ⟨0, _⟩ => h0 | ⟨1, _⟩ => h1)))

/-- Channel 61 of a real token row: the value table at (step, token row). -/
theorem tokens_value (i : (⟨3, ![T, 32, 64]⟩ : Shape).Idx) (k : (⟨2, ![T, 25]⟩ : Shape).Idx)
    (h0 : (i 0).val = (k 0).val) (h1 : (i 1).val = (k 1).val) (hd : (i 2).val = 61) : tokens zero z sp te i = z k := by
  have hj : (i 1).val < 25 := by have := idx2_lt1 k; omega
  exact (tokenAt_value zero z sp te (i 0) (i 1) (i 2) hj hd).trans
    (congrArg z (funext fun a => Fin.ext (match a with | ⟨0, _⟩ => h0 | ⟨1, _⟩ => h1)))

/-- Channels 62 and 63 of a real token row: the temporal table at (step, channel − 62). -/
theorem tokens_temporal (i : (⟨3, ![T, 32, 64]⟩ : Shape).Idx) (k : (⟨2, ![T, 2]⟩ : Shape).Idx)
    (hj : (i 1).val < 25) (h0 : (i 0).val = (k 0).val) (h1 : (i 2).val = 62 + (k 1).val) :
    tokens zero z sp te i = te k := by
  exact (tokenAt_temporal zero z sp te (i 0) (i 1) (i 2) hj (by omega)).trans
    (congrArg te (funext fun a => Fin.ext (match a with
      | ⟨0, _⟩ => h0
      | ⟨1, _⟩ => show (i 2).val - 62 = (k 1).val by omega)))

/-- A padding row. -/
theorem tokens_padding (i : (⟨3, ![T, 32, 64]⟩ : Shape).Idx) (hj : 25 ≤ (i 1).val) : tokens zero z sp te i = zero := by
  exact tokenAt_padding zero z sp te (i 0) (i 1) (i 2) hj

/-- Two token arrays of different time extents agree at indices with the same token row and channel whose
    steps select equal rows of the value tables and of the temporal tables. -/
theorem tokens_of_rows {T' : Nat} (z' : (⟨2, ![T', 25]⟩ : Shape).Idx → α) (te' : (⟨2, ![T', 2]⟩ : Shape).Idx → α)
    (i : (⟨3, ![T, 32, 64]⟩ : Shape).Idx) (i' : (⟨3, ![T', 32, 64]⟩ : Shape).Idx)
    (h1 : (i' 1).val = (i 1).val) (h2 : (i' 2).val = (i 2).val)
    (hz : ∀ j : Fin 25, z' (ix2 (i' 0) j) = z (ix2 (i 0) j))
    (hte : ∀ d : Fin 2, te' (ix2 (i' 0) d) = te (ix2 (i 0) d)) :
    tokens zero z' sp te' i' = tokens zero z sp te i := by
  have e1 : (i' 1 : Fin 32) = (i 1 : Fin 32) := Fin.ext h1
  have e2 : (i' 2 : Fin 64) = (i 2 : Fin 64) := Fin.ext h2
  show tokenAt zero z' sp te' (i' 0) (i' 1 : Fin 32) (i' 2 : Fin 64) = tokenAt zero z sp te (i 0) (i 1 : Fin 32) (i 2 : Fin 64)
  rw [e1, e2]
  exact tokenAt_of_rows zero z sp te z' te' (i 0) (i' 0) hz hte (i 1) (i 2)

end Cert.Tokens

end
-- ==== Proof.KernelBlock.lean ====
/-
  What one grid point of the kernel leaves in its output block.

  The body stores four rectangles into the [1000, 32, 64] block: the spatial rows broadcast over the steps
  (token rows 0 … 24, channels 0 … 60), the block of normalised values with a unit channel axis added
  (channel 61), the block of the temporal table broadcast over the token rows (channels 62, 63), and a zero
  fill (token rows 25 … 31). The four rectangles tile the block, and each payload, read at an index of its
  rectangle, is the entry the padded token array of the three loaded blocks has at the block index under it.
  So the block is that token array.
-/
import proofs.«129511_j31894427140137_1_alg».proof.Proof.Gen.KernelIdeal.Frame
import proofs.«129511_j31894427140137_1_alg».proof.Proof.TokenSpec
import Idealize.ShloMosaic.Lib.Pipeline.Value
import Idealize.ShloMosaic.Lib.ValueIdx
import Idealize.ShloMosaic.Lib.ValueLayout

set_option maxRecDepth 16384

noncomputable section

namespace Cert.KernelIdeal.BlockValue

open Cert.KernelIdeal Cert.KernelIdeal.Gen Idealize.ShloMosaic Idealize.ShloMosaic.ValueIdx Idealize.ShloMosaic.TcCoe
open Idealize.ShloMosaic.Tactic Cert.Tokens

variable {F : FTy → Type} [FloatOps F]

/-- The zero the kernel pads with. -/
abbrev zeroF : Elt F .f32 := Scalar.ofBits .f32 0x00000000#32

/-! ## The four payloads read at an index -/

/-- The spatial rows, given a leading unit axis and broadcast over the steps: at (step, token row, channel) the
    spatial table at (token row, channel). -/
theorem pay_spatial (x1 : Vec F S25x61 .f32) (r : Fin 1000) (j : Fin 25) (d : Fin 61) :
    k0_pay1 x1 (ix3 r j d) = x1 (ix2 j d) := by
  unfold k0_pay1
  refine (broadcastTo_apply _ broadcasts_S1x25x61_S1000x25x61 (ix3 r j d) (ix3 (0 : Fin 1) j d) fun a => ?_).trans ?_
  · match a with
    | ⟨0, _⟩ => rfl
    | ⟨1, _⟩ => show j.val = if (25 : Nat) = 1 then 0 else j.val; rw [if_neg (by decide)]
    | ⟨2, _⟩ => show d.val = if (61 : Nat) = 1 then 0 else d.val; rw [if_neg (by decide)]
  · rw [shapeCast_self, shapeCast_ab_1ab_apply, shapeCast_self]

/-- The value block with a trailing unit axis added: at (step, token row, 0) the block at (step, token row). -/
theorem pay_value (x0 : Vec F S1000x25 .f32) (r : Fin 1000) (j : Fin 25) (u : Fin 1) :
    k0_pay3 x0 (ix3 r j u) = x0 (ix2 r j) := by
  unfold k0_pay3
  refine (shapeCast_apply _ shapeCasts_S1000x25_S1000x25x1 (ix3 r j u) (ix2 r j) ?_).trans ?_
  · rw [Shape.rowMajor_val_three, Shape.rowMajor_val_two]
    show r.val * 25 + j.val = (r.val * 25 + j.val) * 1 + u.val
    omega
  · rw [shapeCast_self]

/-- The temporal block, given a middle unit axis and broadcast over the token rows: at (step, token row, channel)
    the block at (step, channel). -/
theorem pay_temporal (x2 : Vec F S1000x2 .f32) (r : Fin 1000) (j : Fin 25) (d : Fin 2) :
    k0_pay2 x2 (ix3 r j d) = x2 (ix2 r d) := by
  unfold k0_pay2
  refine (broadcastTo_apply _ broadcasts_S1000x1x2_S1000x25x2 (ix3 r j d) (ix3 r (0 : Fin 1) d) fun a => ?_).trans ?_
  · match a with
    | ⟨0, _⟩ => show r.val = if (1000 : Nat) = 1 then 0 else r.val; rw [if_neg (by decide)]
    | ⟨1, _⟩ => rfl
    | ⟨2, _⟩ => show d.val = if (2 : Nat) = 1 then 0 else d.val; rw [if_neg (by decide)]
  · rw [shapeCast_self]
    refine shapeCast_apply x2 shapeCasts_S1000x2_S1000x1x2 (ix3 r (0 : Fin 1) d) (ix2 r d) ?_
    rw [Shape.rowMajor_val_three, Shape.rowMajor_val_two]
    show r.val * 2 + d.val = (r.val * 1 + 0) * 2 + d.val
    omega

/-- The zero fill. -/
theorem pay_padding (y : S1000x7x64.Idx) : k0_pay4 (F := F) y = zeroF := rfl

/-! ## The block -/

theorem zero_offsets : (![0, 0] : Fin 2 → Nat) = fun _ => 0 := funext fun a => by fin_cases a <;> rfl

/-- After its four stores the output block is the padded token array of the three loaded blocks: the stores'
    rectangles cover the block, and each payload agrees with the token array under its rectangle. -/
theorem block_eq (c : Dev nD) (i : grid0.Coords) (arg1 : Memref sig .tc .vmem S1000x25 .f32) (harg1 : arg1.IsWhole)
    (arg2 : Memref sig .tc .vmem S25x61 .f32) (harg2 : arg2.IsWhole) (arg3 : Memref sig .tc .vmem S1000x2 .f32) (harg3 : arg3.IsWhole)
    (arg4 : Memref sig .tc .vmem S1000x32x64 .f32) (harg4 : arg4.IsWhole)
    (x0 : Vec F S1000x25 .f32) (x1 : Vec F S25x61 .f32) (x2 : Vec F S1000x2 .f32) :
    out0_A_3 c i arg1 harg1 arg2 harg2 arg3 harg3 arg4 harg4 x0 x1 x2 = tokens (zeroF (F := F)) x0 x1 x2 := by
  unfold out0_A_3
  rw [View.read_writes_eq_canon _ _ _ (cover0_A_3 c i arg1 harg1 arg2 harg2 arg3 harg3 arg4 harg4 x0 x1 x2)]
  funext y
  refine View.canon_apply_of_pieces (tokens (zeroF (F := F)) x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S1000x25) zero_offsets, View.ld_unit_zero (S := S25x61) zero_offsets,
    View.ld_unit_zero (S := S1000x2) zero_offsets]
  intro p hp
  simp only [List.mem_cons, List.not_mem_nil, or_false] at hp
  rcases hp with rfl | rfl | rfl | rfl
  · -- the zero fill: token rows 25 … 31
    intro x
    exact (tokens_padding _ _ _ _ _ (by show 25 ≤ 25 + 1 * (x 1).val; omega)).symm
  · -- the temporal block: channels 62, 63
    intro x
    obtain ⟨r, j, d, rfl⟩ : ∃ (r : Fin 1000) (j : Fin 25) (d : Fin 2), x = ix3 r j d := ⟨x 0, x 1, x 2, eq_ix3 x⟩
    refine (pay_temporal x2 r j d).trans (tokens_temporal _ _ _ _ _ (ix2 r d) ?_ ?_ ?_).symm
    · show 0 + 1 * j.val < 25; omega
    · show 0 + 1 * r.val = r.val; omega
    · show 62 + 1 * d.val = 62 + d.val; omega
  · -- the value block: channel 61
    intro x
    obtain ⟨r, j, u, rfl⟩ : ∃ (r : Fin 1000) (j : Fin 25) (u : Fin 1), x = ix3 r j u := ⟨x 0, x 1, x 2, eq_ix3 x⟩
    refine (pay_value x0 r j u).trans (tokens_value _ _ _ _ _ (ix2 r j) ?_ ?_ ?_).symm
    · show 0 + 1 * r.val = r.val; omega
    · show 0 + 1 * j.val = j.val; omega
    · show 61 + 1 * u.val = 61; omega
  · -- the spatial rows: channels 0 … 60
    intro x
    obtain ⟨r, j, d, rfl⟩ : ∃ (r : Fin 1000) (j : Fin 25) (d : Fin 61), x = ix3 r j d := ⟨x 0, x 1, x 2, eq_ix3 x⟩
    refine (pay_spatial x1 r j d).trans (tokens_spatial _ _ _ _ _ (ix2 j d) ?_ ?_).symm
    · show 0 + 1 * j.val = j.val; omega
    · show 0 + 1 * d.val = d.val; omega

end Cert.KernelIdeal.BlockValue

end
-- ==== Proof.KernelArray.lean ====
/-
  The kernel's result array, as one function of its arguments.

  Grid point `t` (of 100) works on steps 1000·t … 1000·t + 999: it is handed rows 1000·t … of the normalised
  value table and of the temporal table, and the whole 25 × 61 table of gathered spatial rows, and writes its
  block back to steps 1000·t … of the result. By the block theorem what it writes is the padded token array
  of those blocks; since an entry of the token array depends on the two step-indexed tables only through the
  row of its step, that is the block of the padded token array of the WHOLE tables. The 100 blocks tile the
  result (step `s` lies in the block of point `s / 1000`), so the result array is the token array of the tables
  as the region finds them. Those tables are what the operations before the region compute from the
  arguments: the normalised, transposed gather of the value rows, and the gather of the spatial rows.
-/
import proofs.«129511_j31894427140137_1_alg».proof.Proof.Gen.KernelIdeal.Value
import proofs.«129511_j31894427140137_1_alg».proof.Proof.KernelBlock
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.Value Cert.KernelIdeal.BlockValue
open Idealize.ShloMosaic Idealize.ShloMosaic.ValueIdx Idealize.ShloMosaic.TcCoe Idealize.SL.Sem Idealize.ShloMosaic.StableHlo
open Idealize.ShloMosaic.Pipeline (Dat)
open Cert.Tokens

variable {F : FTy → Type} [FloatOps F]
variable (m : (ℓ : Loc nD τ sig) → Buf (Elt F) ℓ) (ρ : Dev nD → PrngReg)

/-! ## The tables as the region finds them, and the blocks a point is handed -/

/-- The normalised values, step-major, as the region finds them. -/
abbrev zArr (c : Dev nD) : Vec F S100000x25 .f32 := V m c main_v13
/-- The gathered spatial rows, as the region finds them. -/
abbrev spArr (c : Dev nD) : Vec F S25x61 .f32 := V m c main_v20
/-- The temporal table, as the region finds it. -/
abbrev teArr (c : Dev nD) : Vec F S100000x2 .f32 := V m c main_arg1
/-- Point `t`'s block of the normalised values, -/
abbrev zBlk (c : Dev nD) (t : Fin cfg0.N) : Vec F S1000x25 .f32 := iblk m c 0 t
/-- its (whole) block of the spatial rows, -/
abbrev spBlk (c : Dev nD) (t : Fin cfg0.N) : Vec F S25x61 .f32 := iblk m c 1 t
/-- and its block of the temporal table. -/
abbrev teBlk (c : Dev nD) (t : Fin cfg0.N) : Vec F S1000x2 .f32 := iblk m c 2 t

/-- The printed index maps over the grid: the step-indexed windows are at block `t` on the step axis and at
    block 0 elsewhere; the spatial table's window is always its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The spatial window's one block is the whole table. -/
theorem spBlk_eq (c : Dev nD) (t : Fin cfg0.N) : spBlk m c t = spArr m c := by
  obtain ⟨-, -, e10, e11, -, -, -, -, -⟩ := index_facts t
  funext k
  show V m c main_v20 (((cfg0.win 1).blk t).view.emb k) = V m c main_v20 k
  refine congrArg (V m c main_v20) (funext fun a => Fin.ext ?_)
  match a with
  | ⟨0, _⟩ => show win0_1.index t (0 : Fin 2) * 25 + 1 * (k 0).val = (k 0).val; omega
  | ⟨1, _⟩ => show win0_1.index t (1 : Fin 2) * 61 + 1 * (k 1).val = (k 1).val; omega

/-! ## What a point writes back is its block of the token array of the whole tables -/

theorem flushed_eq (c : Dev nD) (t : Fin cfg0.N) :
    (dats m 0 c).flushed 3 t
      = ((cfg0.win 3).blk t).view.read (Elt F) (tokens (zeroF (F := F)) (zArr m c) (spArr m c) (teArr m c)) := by
  rw [flushed3_A, block_eq]
  obtain ⟨e00, e01, -, -, e20, e21, e30, e31, e32⟩ := index_facts t
  funext y
  have hy0 : (y 0).val < 1000 := (y 0).isLt
  show tokens (zeroF (F := F)) (zBlk m c t) (spBlk m c t) (teBlk m c t) y
    = tokens (zeroF (F := F)) (zArr m c) (spArr m c) (teArr m c) (((cfg0.win 3).blk t).view.emb y)
  rw [spBlk_eq]
  refine tokens_of_rows (zeroF (F := F)) (zArr m c) (spArr m c) (teArr m c) (zBlk m c t) (teBlk m c t)
    (((cfg0.win 3).blk t).view.emb y) y ?_ ?_ (fun j => ?_) (fun d => ?_)
  · show (y 1).val = win0_3.index t (1 : Fin 3) * 32 + 1 * (y 1).val; omega
  · show (y 2).val = win0_3.index t (2 : Fin 3) * 64 + 1 * (y 2).val; omega
  · show V m c main_v13 (((cfg0.win 0).blk t).view.emb (ix2 (⟨(y 0).val, hy0⟩ : Fin 1000) j)) = V m c main_v13 _
    refine congrArg (V m c main_v13) (funext fun a => Fin.ext ?_)
    match a with
    | ⟨0, _⟩ => show win0_0.index t (0 : Fin 2) * 1000 + 1 * (y 0).val = win0_3.index t (0 : Fin 3) * 1000 + 1 * (y 0).val; omega
    | ⟨1, _⟩ => show win0_0.index t (1 : Fin 2) * 25 + 1 * j.val = j.val; omega
  · show V m c main_arg1 (((cfg0.win 2).blk t).view.emb (ix2 (⟨(y 0).val, hy0⟩ : Fin 1000) d)) = V m c main_arg1 _
    refine congrArg (V m c main_arg1) (funext fun a => Fin.ext ?_)
    match a with
    | ⟨0, _⟩ => show win0_2.index t (0 : Fin 2) * 1000 + 1 * (y 0).val = win0_3.index t (0 : Fin 3) * 1000 + 1 * (y 0).val; omega
    | ⟨1, _⟩ => show win0_2.index t (1 : Fin 2) * 2 + 1 * d.val = d.val; omega

/-! ## The blocks tile the result -/

/-- An index of the result is in point `t`'s block iff each coordinate is in the block's range on its axis. -/
theorem mem_blk (t : Fin cfg0.N) (i : S100000x32x64.Idx) :
    i ∈ ((cfg0.win 3).blk t).view.set ↔ ∀ a : Fin 3, win0_3.index t a * S1000x32x64.size a ≤ (i a).val
      ∧ (i a).val < win0_3.index t a * S1000x32x64.size a + S1000x32x64.size a := by
  show i ∈ ((View.whole main_v21).slice (win0_3.rect t)).set ↔ _
  rw [View.set_slice_whole, Rect.mem_set_unit]
  exact Iff.rfl

/-- Step `s` is in the block of point `s / 1000`. -/
theorem covered (i : S100000x32x64.Idx) :
    ∃ t : Fin cfg0.N, (cfg0.win 3).flush t = true ∧ i ∈ ((cfg0.win 3).blk t).view.set := by
  have h0 : (i 0).val < 100000 := (i 0).isLt
  have h1 : (i 1).val < 32 := (i 1).isLt
  have h2 : (i 2).val < 64 := (i 2).isLt
  have hN : grid0.N = 100 := N_0
  have hlt : (i 0).val / 1000 < grid0.N := by omega
  obtain ⟨-, -, -, -, -, -, e30, e31, e32⟩ := index_facts ⟨(i 0).val / 1000, hlt⟩
  refine ⟨⟨(i 0).val / 1000, hlt⟩, flush0_3 _, ?_⟩
  rw [mem_blk]
  intro a
  match a with
  | ⟨0, _⟩ =>
    show win0_3.index ⟨(i 0).val / 1000, hlt⟩ (0 : Fin 3) * 1000 ≤ (i 0).val
      ∧ (i 0).val < win0_3.index ⟨(i 0).val / 1000, hlt⟩ (0 : Fin 3) * 1000 + 1000
    rw [e30]
    show (i 0).val / 1000 * 1000 ≤ (i 0).val ∧ (i 0).val < (i 0).val / 1000 * 1000 + 1000
    omega
  | ⟨1, _⟩ =>
    show win0_3.index ⟨(i 0).val / 1000, hlt⟩ (1 : Fin 3) * 32 ≤ (i 1).val
      ∧ (i 1).val < win0_3.index ⟨(i 0).val / 1000, hlt⟩ (1 : Fin 3) * 32 + 32
    omega
  | ⟨2, _⟩ =>
    show win0_3.index ⟨(i 0).val / 1000, hlt⟩ (2 : Fin 3) * 64 ≤ (i 2).val
      ∧ (i 2).val < win0_3.index ⟨(i 0).val / 1000, hlt⟩ (2 : Fin 3) * 64 + 64
    omega

/-- The result array after the run is the token array of the tables as the region finds them. -/
theorem final (c : Dev nD) :
    (dats m 0 c).arrAt 3 cfg0.N = tokens (zeroF (F := F)) (zArr m c) (spArr m c) (teArr m c) :=
  (dats m 0 c).arrAt_eq_of_cover 3 _ (fun t _ => flushed_eq m c t) covered

/-! ## The tables, from the arguments -/

/-- The token rows' node indices as the gather reads them: a negative index counted from the end (+500), each in
    its own row of a [25, 1] array. -/
def nodeRows (x5 : (⟨S25, .i32⟩ : BufTy).Contents (Elt F)) : (⟨S25x1, .i32⟩ : BufTy).Contents (Elt F) :=
  broadcastInDim S25x1 ![0] bcast_S25_S25x1_0
    (select (cmpi .slt x5 (broadcastInDim S25 ![] bcast_S_S25 (constantI S_ 32 0#32)))
      (addi x5 (broadcastInDim S25 ![] bcast_S_S25 (constantI S_ 32 500#32))) x5)

/-- The normalised values, step-major: the gathered value rows less `mu`, over `sigma`, transposed. -/
def zTable (x0 : (⟨S500x100000, .f32⟩ : BufTy).Contents (Elt F)) (x3 x4 : (⟨S1, .f32⟩ : BufTy).Contents (Elt F))
    (x5 : (⟨S25, .i32⟩ : BufTy).Contents (Elt F)) : (⟨S100000x25, .f32⟩ : BufTy).Contents (Elt F) :=
  transpose S100000x25 [1, 0]
    (Host.divf
      (subf (Host.gather gather_S500x100000_S25x1_S25x100000_1_0_n_n_0_1_1100000 x0 (nodeRows (F := F) x5))
        (broadcastInDim S25x100000 ![] bcast_S_S25x100000 (shapeCast _ x3 shapeCasts_S1_S_)))
      (broadcastInDim S25x100000 ![] bcast_S_S25x100000 (shapeCast _ x4 shapeCasts_S1_S_)))
    transposes_S25x100000_S100000x25_1_0

/-- The gathered spatial rows. -/
def spTable (x2 : (⟨S500x61, .f32⟩ : BufTy).Contents (Elt F)) (x5 : (⟨S25, .i32⟩ : BufTy).Contents (Elt F)) :
    (⟨S25x61, .f32⟩ : BufTy).Contents (Elt F) :=
  Host.gather gather_S500x61_S25x1_S25x61_1_0_n_n_0_1_161 x2 (nodeRows (F := F) x5)

theorem zArr_eq (c : Dev nD) :
    zArr m c = zTable (F := F) (m ((c : Thread nD τ).loc main_arg0)) (m ((c : Thread nD τ).loc main_arg3))
      (m ((c : Thread nD τ).loc main_arg4)) (m ((c : Thread nD τ).loc main_arg5)) := by
  show V m c main_v13 = _
  dsimp only [Gen.V, Gen.hostOps0]
  after_results
  rfl

theorem spArr_eq (c : Dev nD) :
    spArr m c = spTable (F := F) (m ((c : Thread nD τ).loc main_arg2)) (m ((c : Thread nD τ).loc main_arg5)) := by
  show V m c main_v20 = _
  dsimp only [Gen.V, Gen.hostOps0]
  after_results
  rfl

theorem teArr_eq (c : Dev nD) : teArr m c = m ((c : Thread nD τ).loc main_arg1) := V_main_arg1 m c

/-! ## The run -/

/-- Every weakly fair execution of the kernel's program terminates with the result array at the padded token array
    of the normalised values, the gathered spatial rows and the temporal table, the arguments unchanged. -/
theorem run : θ_run defs (onTc (τ := τ) (main (F := F))) ⟨m, fun _ => 0, ρ⟩ fun r => ∀ c : Dev nD,
      r.2.mem ((c : Thread nD τ).loc main_v21)
        = tokens (zeroF (F := F))
            (zTable (F := F) (m ((c : Thread nD τ).loc main_arg0)) (m ((c : Thread nD τ).loc main_arg3))
              (m ((c : Thread nD τ).loc main_arg4)) (m ((c : Thread nD τ).loc main_arg5)))
            (spTable (F := F) (m ((c : Thread nD τ).loc main_arg2)) (m ((c : Thread nD τ).loc main_arg5)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (by
      rw [final m c, zArr_eq m c, spArr_eq m c, teArr_eq m c]), (h c).2⟩)
    (run_blocks m ρ)

end Cert.KernelIdeal.ArrayValue

end
-- ==== Proof.RefTokens.lean ====
/-
  The reference's result is the padded token array.

  The reference joins, along the channel axis, the gathered spatial rows broadcast over the steps, the
  normalised values (step-major) with a unit channel axis, and the temporal table broadcast over the token
  rows; then joins, along the token axis, 7 rows of zeros. Read at an index, a join takes the operand whose
  span on the joined axis holds the index's coordinate there, and each broadcast reads its operand at the
  index's coordinates on the axes it keeps. So the result is the padded token array of the reference's own
  normalised-value stage, its gathered spatial rows, and the temporal table.
-/
import proofs.«129511_j31894427140137_1_alg».proof.Proof.Gen.ReferenceIdeal.Read
import proofs.«129511_j31894427140137_1_alg».proof.Proof.TokenSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Tokens

variable {F : FTy → Type} [FloatOps F]

/-- The zero the reference pads with. -/
abbrev zeroR : Elt F .f32 := FloatOps.ofBits .f32 0x00000000#32

variable (x0 : (⟨S500x100000, .f32⟩ : BufTy).Contents (Elt F)) (x1 : (⟨S100000x2, .f32⟩ : BufTy).Contents (Elt F))
  (x2 : (⟨S500x61, .f32⟩ : BufTy).Contents (Elt F)) (x3 x4 : (⟨S1, .f32⟩ : BufTy).Contents (Elt F))
  (x5 : (⟨S25, .i32⟩ : BufTy).Contents (Elt F))

/-- The channel join at a real token row is the token array's entry there. -/
theorem joined_channels (k : S100000x25x64.Idx) (i : S100000x32x64.Idx)
    (h0 : (k 0).val = (i 0).val) (h1 : (k 1).val = (i 1).val) (h2 : (k 2).val = (i 2).val) :
    val_main_v26 (F := F) x0 x1 x2 x3 x4 x5 k
      = tokens (zeroR (F := F)) (val_main_v13 (F := F) x0 x3 x4 x5) (val_main_v21 (F := F) x2 x5) x1 i := by
  have hk1 : (k 1).val < 25 := (k 1).isLt
  have hk2 : (k 2).val < 64 := (k 2).isLt
  unfold val_main_v26
  by_cases hd : (k 2).val < 61
  · -- a spatial channel
    refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] concatenates_S100000x25x61_S100000x25x1_S100000x25x2_S100000x25x64_d2 k
      0 (by show (0 : Nat) < 3; omega) S100000x25x61 (val_main_v23 (F := F) x2 x5) rfl rfl 0 rfl
      (ix3 (k 0) (k 1) ⟨(k 2).val, hd⟩) (fun b hb => ?_) ?_).trans ?_
    · match b with
      | ⟨0, _⟩ => rfl
      | ⟨1, _⟩ => rfl
      | ⟨2, _⟩ => exact absurd rfl hb
    · show 0 + (k 2).val = (k 2).val; omega
    · rw [val_main_v23_apply, val_main_v22_apply]
      exact (tokens_spatial _ _ _ _ i _ h1.symm h2.symm).symm
  · by_cases hd' : (k 2).val < 62
    · -- the value channel
      refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] concatenates_S100000x25x61_S100000x25x1_S100000x25x2_S100000x25x64_d2 k
        1 (by show (1 : Nat) < 3; omega) S100000x25x1 (val_main_v14 (F := F) x0 x3 x4 x5) rfl rfl 61 rfl
        (ix3 (k 0) (k 1) (0 : Fin 1)) (fun b hb => ?_) ?_).trans ?_
      · match b with
        | ⟨0, _⟩ => rfl
        | ⟨1, _⟩ => rfl
        | ⟨2, _⟩ => exact absurd rfl hb
      · show 61 + 0 = (k 2).val; omega
      · rw [val_main_v14_apply]
        exact (tokens_value _ _ _ _ i _ h0.symm h1.symm (by omega)).symm
    · -- a temporal channel
      refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] concatenates_S100000x25x61_S100000x25x1_S100000x25x2_S100000x25x64_d2 k
        2 (by show (2 : Nat) < 3; omega) S100000x25x2 (val_main_v25 (F := F) x1) rfl rfl 62 rfl
        (ix3 (k 0) (k 1) ⟨(k 2).val - 62, by omega⟩) (fun b hb => ?_) ?_).trans ?_
      · match b with
        | ⟨0, _⟩ => rfl
        | ⟨1, _⟩ => rfl
        | ⟨2, _⟩ => exact absurd rfl hb
      · show 62 + ((k 2).val - 62) = (k 2).val; omega
      · rw [val_main_v25_apply, val_main_v24_apply]
        refine (tokens_temporal _ _ _ _ i _ (by omega) ?_ ?_).symm
        · show (i 0).val = (k 0).val; omega
        · show (i 2).val = 62 + ((k 2).val - 62); omega

/-- The reference's result, as a function of its arguments, is the padded token array of its normalised-value
    stage, its gathered spatial rows and the temporal table. -/
theorem result_tokens :
    val_main_v28 (F := F) x0 x1 x2 x3 x4 x5
      = tokens (zeroR (F := F)) (val_main_v13 (F := F) x0 x3 x4 x5) (val_main_v21 (F := F) x2 x5) x1 := by
  funext i
  have hi1 : (i 1).val < 32 := (i 1).isLt
  unfold val_main_v28
  by_cases hj : (i 1).val < 25
  · refine (concatenate_pair_apply_left (t := S100000x32x64) (s₁ := S100000x25x64) (s₂ := S100000x7x64) (1 : Fin 3)
      (val_main_v26 (F := F) x0 x1 x2 x3 x4 x5) (val_main_v27 (F := F))
      concatenates_S100000x25x64_S100000x7x64_S100000x32x64_d1 i rfl
      (ix3 (i 0) (⟨(i 1).val, hj⟩ : Fin 25) (i 2)) (fun b => ?_)).trans ?_
    · match b with
      | ⟨0, _⟩ => rfl
      | ⟨1, _⟩ => rfl
      | ⟨2, _⟩ => rfl
    · exact joined_channels x0 x1 x2 x3 x4 x5 _ i rfl rfl rfl
  · refine (concatenate_pair_apply_right (t := S100000x32x64) (s₁ := S100000x25x64) (s₂ := S100000x7x64) (1 : Fin 3)
      (val_main_v26 (F := F) x0 x1 x2 x3 x4 x5) (val_main_v27 (F := F))
      concatenates_S100000x25x64_S100000x7x64_S100000x32x64_d1 i rfl rfl
      (ix3 (i 0) (⟨(i 1).val - 25, by omega⟩ : Fin 7) (i 2)) (fun b hb => ?_) ?_).trans ?_
    · match b with
      | ⟨0, _⟩ => rfl
      | ⟨1, _⟩ => exact absurd rfl hb
      | ⟨2, _⟩ => rfl
    · show ((i 1).val - 25) + 25 = (i 1).val; omega
    · rw [val_main_v27_apply, val_main_cst_apply]
      exact (tokens_padding _ _ _ _ i (by omega)).symm

end Cert.ReferenceIdeal.RefValue

end
-- ==== Proof.lean ====
/-
  The kernel builds, for a node and its 24 neighbours, the padded token sequence of every time step: token row
  `j < 25` of step `r` is (spatial embedding of node `nbr[j]` | (values[nbr[j], r] − mu) / sigma | temporal
  embedding of step `r`), 64 channels, and token rows 25 … 31 are zero. It computes the two gathered tables and
  the normalisation with the same host operations as the reference and then assembles the [100000, 32, 64]
  result in 100 blocks of 1000 steps, each block by four rectangle stores; the reference assembles it by two
  concatenations of broadcasts.

  Both results are the SAME function `Cert.Tokens.tokens` (Proof/TokenSpec.lean) of the same three tables:
    * the kernel's, because each point's four stores tile its block with the token array's entries
      (Proof/KernelBlock.lean), a block of the token array depends on the step-indexed tables only through the
      rows of its steps, and the 100 blocks tile the result (Proof/KernelArray.lean);
    * the reference's, because a concatenation read at an index takes the operand whose span holds the
      coordinate and a broadcast reads its operand on the axes it keeps (Proof/RefTokens.lean).
  The tables themselves — the normalised, transposed gather of the value rows; the gather of the spatial rows;
  the temporal table — are spelt by the same operations in both programs, and the padding zero is the same
  word, so nothing about the extended reals beyond equality of identical terms is used: the precondition is
  never opened.

  The three frames: the kernel's two are the generated frame certificates; the reference's is its generated
  run with the result dropped. The idealisation rewrote nothing, so `preserves` is `True`.
-/
import proofs.«129511_j31894427140137_1_alg».proof.Defs
import proofs.«129511_j31894427140137_1_alg».proof.Proof.Gen.Kernel
import proofs.«129511_j31894427140137_1_alg».proof.Proof.Gen.Kernel.Skeleton
import proofs.«129511_j31894427140137_1_alg».proof.Proof.Gen.Kernel.Launch
import proofs.«129511_j31894427140137_1_alg».proof.Proof.Gen.Kernel.Points
import proofs.«129511_j31894427140137_1_alg».proof.Proof.Gen.Kernel.Frame
import proofs.«129511_j31894427140137_1_alg».proof.Proof.Gen.KernelIdeal
import proofs.«129511_j31894427140137_1_alg».proof.Proof.Gen.KernelIdeal.Skeleton
import proofs.«129511_j31894427140137_1_alg».proof.Proof.Gen.KernelIdeal.Launch
import proofs.«129511_j31894427140137_1_alg».proof.Proof.Gen.KernelIdeal.Points
import proofs.«129511_j31894427140137_1_alg».proof.Proof.Gen.KernelIdeal.Frame
import proofs.«129511_j31894427140137_1_alg».proof.Proof.Gen.ReferenceIdeal
import proofs.«129511_j31894427140137_1_alg».proof.Proof.Gen.Pre_finite_inputs
import proofs.«129511_j31894427140137_1_alg».proof.Proof.Gen.KernelIdeal.Value
import proofs.«129511_j31894427140137_1_alg».proof.Proof.Gen.ReferenceIdeal.Run
import proofs.«129511_j31894427140137_1_alg».proof.Proof.Gen.ReferenceIdeal.Read
import proofs.«129511_j31894427140137_1_alg».proof.Proof.KernelArray
import proofs.«129511_j31894427140137_1_alg».proof.Proof.RefTokens
import Idealize.ShloMosaic.Adequacy
import Idealize.ShloMosaic.Init

noncomputable section

namespace Cert.Proof

open Idealize.ShloMosaic Idealize.SL.Sem

/-! ## The two programs' tables and padding are the same -/

/-- The kernel's normalised-value table is the reference's stage: the same operations of the same arguments. -/
theorem zTable_eq (x0 : (⟨Cert.ReferenceIdeal.S500x100000, .f32⟩ : BufTy).Contents (Elt Ideal))
    (x3 x4 : (⟨Cert.ReferenceIdeal.S1, .f32⟩ : BufTy).Contents (Elt Ideal))
    (x5 : (⟨Cert.ReferenceIdeal.S25, .i32⟩ : BufTy).Contents (Elt Ideal)) :
    Cert.ReferenceIdeal.Read.val_main_v13 (F := Ideal) x0 x3 x4 x5
      = Cert.KernelIdeal.ArrayValue.zTable (F := Ideal) x0 x3 x4 x5 := rfl

/-- The kernel's gathered spatial rows are the reference's stage. -/
theorem spTable_eq (x2 : (⟨Cert.ReferenceIdeal.S500x61, .f32⟩ : BufTy).Contents (Elt Ideal))
    (x5 : (⟨Cert.ReferenceIdeal.S25, .i32⟩ : BufTy).Contents (Elt Ideal)) :
    Cert.ReferenceIdeal.Read.val_main_v21 (F := Ideal) x2 x5
      = Cert.KernelIdeal.ArrayValue.spTable (F := Ideal) x2 x5 := rfl

/-- The two programs pad with the same zero. -/
theorem zero_eq : Cert.ReferenceIdeal.RefValue.zeroR (F := Ideal) = Cert.KernelIdeal.BlockValue.zeroF (F := Ideal) := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array and the reference's are the padded
    token array of the same three tables. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v28_eq, Cert.ReferenceIdeal.RefValue.result_tokens, zTable_eq, spTable_eq,
    zero_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
